-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S1024x1024 .f32) (main_arg2 : FVec F S1024 .f32) (main_arg3 : FVec F S1024x1024 .f32) (main_arg4 : FVec F S1024 .f32) (main_arg5 : IVec S1024x1024 1) (main_arg6 : FVec F S1024x1024 .f32) (main_arg7 : FVec F S1024 .f32) (main_arg8 : IVec S1024x1024 1) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg6 main_arg7 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .i1⟩
  | .hbm, ⟨6, _⟩ => ⟨S1024x1024, .f32⟩
  | .hbm, ⟨7, _⟩ => ⟨S1024, .f32⟩
  | .hbm, ⟨8, _⟩ => ⟨S1024x1024, .i1⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .i1⟩
  | .hbm, ⟨6, _⟩ => ⟨S1024x1024, .f32⟩
  | .hbm, ⟨7, _⟩ => ⟨S1024, .f32⟩
  | .hbm, ⟨8, _⟩ => ⟨S1024x1024, .i1⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S1024x1024, .f32⟩
  | .hbm, ⟨17, _⟩ => ⟨S1024x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1024x1024, .f32⟩
  | .hbm, ⟨26, _⟩ => ⟨S1024x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_cst : Ref sig .tc := ⟨.hbm, 31, rfl⟩
abbrev main_call2_v0 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Mlp.lean ====
/-
  The function both programs compute: a three-layer perceptron with rectifiers, row by row.

  One layer sends a row of activations `h` (1024 entries) to the row
      out[o] = max (Σ_k h[k] · w[o,k] + b[o], 0),
  with `w` a 1024 × 1024 weight matrix stored output-major and `b` a bias row. The network composes three
  such layers; the second and third weight matrices are first multiplied entry by entry with a 0/1 mask.
  Row `r` of the result depends on the input only through row `r`, which is why a tiling of the batch axis
  computes the same array as one whole pass.

  Everything is stated on the extended reals. Only commutative-monoid facts about `+` are ever used on the
  sums (they are compared term by term), so no finiteness of the inputs is needed.
-/
import Idealize.ShloMosaic.PureOps.Ideal
import Idealize.ShloMosaic.Lib.ValueIdx

noncomputable section

open scoped BigOperators

namespace Cert.Mlp

open Idealize.ShloMosaic Idealize.ShloMosaic.ValueIdx

/-- The batch array's shape, the weight matrices', the bias rows'. -/
abbrev SX : Shape := ⟨2, ![16384, 1024]⟩
abbrev SW : Shape := ⟨2, ![1024, 1024]⟩
abbrev SB : Shape := ⟨1, ![1024]⟩

/-- The rectifier's threshold: the extended real the all-zero f32 word denotes (it is 0; never evaluated here,
    since both programs carry the same word). -/
abbrev thr : EReal := Ideal.ofBits .f32 0x00000000#32

/-- One rectified affine layer on one row: `out[o] = max (Σ_k h[k] · w[o,k] + b[o], thr)`. -/
def layerRow (h : Fin 1024 → EReal) (w : Fin 1024 → Fin 1024 → EReal) (b : Fin 1024 → EReal) : Fin 1024 → EReal :=
  fun o => max ((∑ k : Fin 1024, h k * w o k) + b o) thr

/-- A weight matrix as a function of (output, input) coordinates. -/
abbrev dense (w : SW.Idx → EReal) : Fin 1024 → Fin 1024 → EReal := fun o k => w (ix2 o k)

/-- A weight matrix multiplied entry by entry with a mask of bits read as 0 or 1. -/
abbrev masked (w : SW.Idx → EReal) (mk : SW.Idx → BitVec 1) : Fin 1024 → Fin 1024 → EReal :=
  fun o k => w (ix2 o k) * FloatOps.uitofp (F := Ideal) .f32 (mk (ix2 o k))

/-- A bias vector as a function of its coordinate. -/
abbrev bias (b : SB.Idx → EReal) : Fin 1024 → EReal := fun o => b (ix1 o)

/-- The network's value at row `r`, column `o`, from the nine argument arrays in the programs' order
    (x, w0, b0, w1, b1, mask1, w2, b2, mask2). -/
def networkAt (x : SX.Idx → EReal) (w0 : SW.Idx → EReal) (b0 : SB.Idx → EReal) (w1 : SW.Idx → EReal) (b1 : SB.Idx → EReal)
    (m1 : SW.Idx → BitVec 1) (w2 : SW.Idx → EReal) (b2 : SB.Idx → EReal) (m2 : SW.Idx → BitVec 1)
    (r : Fin 16384) (o : Fin 1024) : EReal :=
  layerRow (layerRow (layerRow (fun k => x (ix2 r k)) (dense w0) (bias b0)) (masked w1 m1) (bias b1)) (masked w2 m2) (bias b2) o

/-- The network's result array. -/
def network (x : SX.Idx → EReal) (w0 : SW.Idx → EReal) (b0 : SB.Idx → EReal) (w1 : SW.Idx → EReal) (b1 : SB.Idx → EReal)
    (m1 : SW.Idx → BitVec 1) (w2 : SW.Idx → EReal) (b2 : SB.Idx → EReal) (m2 : SW.Idx → BitVec 1) : SX.Idx → EReal :=
  fun i => networkAt x w0 b0 w1 b1 m1 w2 b2 m2 (i 0) (i 1)

/-- An array that agrees with the network at every (row, column) pair is the network's result array. -/
theorem eq_network (x : SX.Idx → EReal) (w0 : SW.Idx → EReal) (b0 : SB.Idx → EReal) (w1 : SW.Idx → EReal) (b1 : SB.Idx → EReal)
    (m1 : SW.Idx → BitVec 1) (w2 : SW.Idx → EReal) (b2 : SB.Idx → EReal) (m2 : SW.Idx → BitVec 1) (y : SX.Idx → EReal)
    (h : ∀ (r : Fin 16384) (o : Fin 1024), y (ix2 r o) = networkAt x w0 b0 w1 b1 m1 w2 b2 m2 r o) :
    y = network x w0 b0 w1 b1 m1 w2 b2 m2 := by
  funext i
  rw [eq_ix2 i]
  exact h (i 0) (i 1)

end Cert.Mlp

end
-- ==== Proof.RefNetwork.lean ====
/-
  The reference computes the network.

  Its program is three repetitions of one pattern: a contraction of the running activations with a weight
  matrix over both operands' second axis, a bias row broadcast down the batch axis and added, and a maximum
  with a broadcast zero. Read at entry (r, o) one repetition is
      max (Σ_k h[r,k] · w[o,k] + b[o], 0),
  one rectified affine layer applied to row r; the whole program is that reading three times over, the second
  and third weight matrices being the entrywise products with their masks.
-/
import proofs.«410666_j53927609369198_3_alg».proof.Proof.Gen.ReferenceIdeal.Read
import proofs.«410666_j53927609369198_3_alg».proof.Proof.Mlp

noncomputable section

open scoped BigOperators

namespace Cert.ReferenceIdeal.RefValue

open Cert.ReferenceIdeal Cert.ReferenceIdeal.Read Idealize.ShloMosaic Idealize.ShloMosaic.ValueIdx

/-- The contraction's left operand at output entry (r, o) and summation index k is entry (r, k) … -/
theorem lidx_eq (r : Fin 16384) (o k : Fin 1024) : lidx_main_v0 (ix2 r o) k = ix2 r k :=
  funext fun a => Fin.ext (by match a with | ⟨0, _⟩ => rfl | ⟨1, _⟩ => rfl)

/-- … its right operand entry (o, k): both operands are contracted over their second axis. -/
theorem ridx_eq (r : Fin 16384) (o k : Fin 1024) : ridx_main_v0 (ix2 r o) k = ix2 o k :=
  funext fun a => Fin.ext (by match a with | ⟨0, _⟩ => rfl | ⟨1, _⟩ => rfl)

/-- The bias row, broadcast first to one row and then down the batch axis, is read at the column. -/
theorem bidx_eq (r : Fin 16384) (o : Fin 1024) : idx_main_v1 (idx_main_v2 (ix2 r o)) = ix1 o :=
  funext fun a => Fin.ext (by match a with | ⟨0, _⟩ => rfl)

/-- ONE LAYER of the reference at an entry: contraction, bias, rectifier — the first layer's four stages, for
    any activations, weights and bias. -/
theorem layer_apply (h : (⟨S16384x1024, .f32⟩ : BufTy).Contents (Elt Ideal)) (w : (⟨S1024x1024, .f32⟩ : BufTy).Contents (Elt Ideal))
    (b : (⟨S1024, .f32⟩ : BufTy).Contents (Elt Ideal)) (r : Fin 16384) (o : Fin 1024) :
    val_main_v4 (F := Ideal) h w b (ix2 r o)
      = Mlp.layerRow (fun k => h (ix2 r k)) (Mlp.dense w) (Mlp.bias b) o := by
  rw [val_main_v4_apply, val_main_v3_apply, val_main_v0_apply, val_main_v2_apply, val_main_v1_apply,
    val_main_call0_v0_apply, val_main_call0_cst_apply]
  simp only [lidx_eq, ridx_eq, bidx_eq]
  rfl

/-- The program's result is the first layer's stages applied three times: to the input with the first weights,
    to that with the second weights masked, to that with the third weights masked. -/
theorem result_eq_layers (x0 : (⟨S16384x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .i1⟩ : BufTy).Contents (Elt Ideal))
    (x6 : (⟨S1024x1024, .f32⟩ : BufTy).Contents (Elt Ideal)) (x7 : (⟨S1024, .f32⟩ : BufTy).Contents (Elt Ideal))
    (x8 : (⟨S1024x1024, .i1⟩ : BufTy).Contents (Elt Ideal)) :
    val_main_v18 (F := Ideal) x0 x1 x2 x3 x4 x5 x6 x7 x8
      = val_main_v4 (F := Ideal) (val_main_v4 (F := Ideal) (val_main_v4 (F := Ideal) x0 x1 x2) (val_main_v6 (F := Ideal) x3 x5) x4)
          (val_main_v13 (F := Ideal) x6 x8) x7 := rfl

/-- THE REFERENCE'S RESULT at an entry is the network's value there. -/
theorem result_apply (x0 : (⟨S16384x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .i1⟩ : BufTy).Contents (Elt Ideal))
    (x6 : (⟨S1024x1024, .f32⟩ : BufTy).Contents (Elt Ideal)) (x7 : (⟨S1024, .f32⟩ : BufTy).Contents (Elt Ideal))
    (x8 : (⟨S1024x1024, .i1⟩ : BufTy).Contents (Elt Ideal)) (r : Fin 16384) (o : Fin 1024) :
    val_main_v18 (F := Ideal) x0 x1 x2 x3 x4 x5 x6 x7 x8 (ix2 r o) = Mlp.networkAt x0 x1 x2 x3 x4 x5 x6 x7 x8 r o := by
  rw [result_eq_layers, layer_apply]
  simp only [layer_apply]
  rfl

/-- So the reference's result array is the network's. -/
theorem result_eq (x0 : (⟨S16384x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .i1⟩ : BufTy).Contents (Elt Ideal))
    (x6 : (⟨S1024x1024, .f32⟩ : BufTy).Contents (Elt Ideal)) (x7 : (⟨S1024, .f32⟩ : BufTy).Contents (Elt Ideal))
    (x8 : (⟨S1024x1024, .i1⟩ : BufTy).Contents (Elt Ideal)) :
    val_main_v18 (F := Ideal) x0 x1 x2 x3 x4 x5 x6 x7 x8 = Mlp.network x0 x1 x2 x3 x4 x5 x6 x7 x8 :=
  Mlp.eq_network _ _ _ _ _ _ _ _ _ _ (result_apply x0 x1 x2 x3 x4 x5 x6 x7 x8)

end Cert.ReferenceIdeal.RefValue

end
-- ==== Proof.Entry.lean ====
/-
  What the tiled call finds in its operands' arrays.

  Before the call the program prepares, from the argument arrays: each weight matrix transposed (the second and
  third first multiplied entry by entry with their masks read as 0 or 1) and changed to the narrower float
  format, which on the extended reals changes nothing; and each bias vector reshaped to one row. Read at an
  entry, a prepared weight matrix at (k, o) is the original — masked where a mask applies — at (o, k), and a
  prepared bias row at (0, o) is the vector at o. The batch array is passed as it is.
-/
import proofs.«410666_j53927609369198_3_alg».proof.Proof.Gen.KernelIdeal.Frame
import proofs.«410666_j53927609369198_3_alg».proof.Proof.Mlp
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-! ## The prepared arrays as terms of the arguments -/

/-- The first weight matrix, transposed. -/
theorem V_w0 (c : Dev nD) : (V m c main_v1 : S1024x1024.Idx → EReal)
    = truncf (F := Ideal) .bf16 (transpose S1024x1024 [1, 0] (m ((c : Thread nD τ).loc main_arg1)) transposes_S1024x1024_S1024x1024_1_0) bitsLt_bf16_f32 := by
  dsimp only [Gen.V, Gen.hostOps0]; after_results <;> rfl

/-- The second weight matrix, masked, then transposed. -/
theorem V_w1 (c : Dev nD) : (V m c main_v5 : S1024x1024.Idx → EReal)
    = truncf (F := Ideal) .bf16 (transpose S1024x1024 [1, 0] (mulf (F := Ideal) (m ((c : Thread nD τ).loc main_arg3)) (uitofp (F := Ideal) .f32 (m ((c : Thread nD τ).loc main_arg5))))
        transposes_S1024x1024_S1024x1024_1_0) bitsLt_bf16_f32 := by
  dsimp only [Gen.V, Gen.hostOps0]; after_results <;> rfl

/-- The third weight matrix, masked, then transposed. -/
theorem V_w2 (c : Dev nD) : (V m c main_v9 : S1024x1024.Idx → EReal)
    = truncf (F := Ideal) .bf16 (transpose S1024x1024 [1, 0] (mulf (F := Ideal) (m ((c : Thread nD τ).loc main_arg6)) (uitofp (F := Ideal) .f32 (m ((c : Thread nD τ).loc main_arg8))))
        transposes_S1024x1024_S1024x1024_1_0) bitsLt_bf16_f32 := by
  dsimp only [Gen.V, Gen.hostOps0]; after_results <;> rfl

/-- The three bias vectors, each as one row. -/
theorem V_b0 (c : Dev nD) : (V m c main_v10 : S1x1024.Idx → EReal)
    = shapeCast S1x1024 (m ((c : Thread nD τ).loc main_arg2)) shapeCasts_S1024_S1x1024 := by
  dsimp only [Gen.V, Gen.hostOps0]; after_results <;> rfl
theorem V_b1 (c : Dev nD) : (V m c main_v11 : S1x1024.Idx → EReal)
    = shapeCast S1x1024 (m ((c : Thread nD τ).loc main_arg4)) shapeCasts_S1024_S1x1024 := by
  dsimp only [Gen.V, Gen.hostOps0]; after_results <;> rfl
theorem V_b2 (c : Dev nD) : (V m c main_v12 : S1x1024.Idx → EReal)
    = shapeCast S1x1024 (m ((c : Thread nD τ).loc main_arg7)) shapeCasts_S1024_S1x1024 := by
  dsimp only [Gen.V, Gen.hostOps0]; after_results <;> rfl

/-! ## Read at an entry -/

/-- The prepared first weight matrix at (k, o) is the argument at (o, k). -/
theorem w0_apply (c : Dev nD) (k o : Fin 1024) :
    (V m c main_v1 : S1024x1024.Idx → EReal) (ix2 k o) = Mlp.dense (m ((c : Thread nD τ).loc main_arg1)) o k := by
  rw [V_w0, truncf_apply, transpose_ix2_apply]

/-- The prepared second weight matrix at (k, o) is the masked argument at (o, k). -/
theorem w1_apply (c : Dev nD) (k o : Fin 1024) :
    (V m c main_v5 : S1024x1024.Idx → EReal) (ix2 k o)
      = Mlp.masked (m ((c : Thread nD τ).loc main_arg3)) (m ((c : Thread nD τ).loc main_arg5)) o k := by
  rw [V_w1, truncf_apply, transpose_ix2_apply]
  rfl

/-- The prepared third weight matrix at (k, o) is the masked argument at (o, k). -/
theorem w2_apply (c : Dev nD) (k o : Fin 1024) :
    (V m c main_v9 : S1024x1024.Idx → EReal) (ix2 k o)
      = Mlp.masked (m ((c : Thread nD τ).loc main_arg6)) (m ((c : Thread nD τ).loc main_arg8)) o k := by
  rw [V_w2, truncf_apply, transpose_ix2_apply]
  rfl

/-- A prepared bias row at (0, o) is the vector at o. -/
theorem b0_apply (c : Dev nD) (o : Fin 1024) :
    (V m c main_v10 : S1x1024.Idx → EReal) (ix2 (0 : Fin 1) o) = Mlp.bias (m ((c : Thread nD τ).loc main_arg2)) o := by
  rw [V_b0, shapeCast_a_1a_apply]
theorem b1_apply (c : Dev nD) (o : Fin 1024) :
    (V m c main_v11 : S1x1024.Idx → EReal) (ix2 (0 : Fin 1) o) = Mlp.bias (m ((c : Thread nD τ).loc main_arg4)) o := by
  rw [V_b1, shapeCast_a_1a_apply]
theorem b2_apply (c : Dev nD) (o : Fin 1024) :
    (V m c main_v12 : S1x1024.Idx → EReal) (ix2 (0 : Fin 1) o) = Mlp.bias (m ((c : Thread nD τ).loc main_arg7)) o := by
  rw [V_b2, shapeCast_a_1a_apply]

end Cert.KernelIdeal.Entry

end
-- ==== Proof.KernelLayer.lean ====
/-
  What the kernel's body stores, entry by entry.

  The body works on one tile of 1024 batch rows. It holds the three weight matrices already transposed
  (input-major, so entry (k, o) is the weight from input k to output o) and the three bias rows as 1 × 1024
  arrays, and computes three times over: the matrix product of the running activations with a weight matrix
  into a zero accumulator, plus the bias row broadcast down the tile, maximum with a zero splat; between the
  layers the activations change float format, which on the extended reals changes nothing. Read at entry
  (p, q) of the tile, one such step is one rectified affine layer applied to row p of the activations, and
  the stored value is the three layers composed.
-/
import proofs.«410666_j53927609369198_3_alg».proof.Proof.Gen.KernelIdeal.Skeleton
import proofs.«410666_j53927609369198_3_alg».proof.Proof.Mlp
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The matrix product's operand indices: rows of the left operand against columns of the right -/

/-- The left operand is read on its row axis at the output entry's row … -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and on its column axis at the summation index. -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand is read on its row axis at the summation index … -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and on its column axis at the output entry's column. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, at entry (p, q): row p of the left operand against column q of
    the right. -/
theorem matmul_zero_apply (h w : FVec Ideal S1024x1024 .bf16) (p q : Fin 1024) :
    FloatOps.matmul dot_S1024x1024_S1024x1024_S1024x1024_1_0_0_1_n_n none h w (constant (F := Ideal) S1024x1024 .f32 0x00000000#32) (ix2 p q)
      = ∑ k : Fin 1024, h (ix2 p k) * w (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## One layer of the body, and the three composed -/

/-- A transposed weight matrix as a function of (output, input) coordinates: entry (k, o) of the stored matrix. -/
abbrev weightT (w : FVec Ideal S1024x1024 .bf16) : Fin 1024 → Fin 1024 → EReal := fun o k => w (ix2 k o)

/-- A 1 × 1024 bias array as a function of the column. -/
abbrev biasRow (b : FVec Ideal S1x1024 .f32) : Fin 1024 → EReal := fun o => b (ix2 (0 : Fin 1) o)

/-- ONE LAYER of the body at entry (p, q) of the tile: product, bias row, rectifier — a rectified affine layer on
    row p of the activations. -/
theorem layer_apply (h w : FVec Ideal S1024x1024 .bf16) (b : FVec Ideal S1x1024 .f32) (p q : Fin 1024) :
    maximumf (addf (FloatOps.matmul dot_S1024x1024_S1024x1024_S1024x1024_1_0_0_1_n_n none h (shapeCast S1024x1024 w shapeCasts_S1024x1024_S1024x1024) (constant (F := Ideal) S1024x1024 .f32 0x00000000#32))
        (broadcastTo S1024x1024 (shapeCast S1x1024 b shapeCasts_S1x1024_S1x1024) broadcasts_S1x1024_S1024x1024))
      (broadcast S1024x1024 (Scalar.ofBits (F := Ideal) .f32 0x00000000#32)) (ix2 p q)
    = Mlp.layerRow (fun k => h (ix2 p k)) (weightT w) (biasRow b) q := by
  rw [maximumf_apply, addf_apply, broadcast_apply, shapeCast_self, shapeCast_self, broadcastTo_1b_ab_apply, matmul_zero_apply]
  rfl

/-- THE STORED VALUE at entry (p, q) of the tile: the three layers on row p of the input tile. -/
theorem pay_apply (x : FVec Ideal S1024x1024 .f32) (w0 w1 w2 : FVec Ideal S1024x1024 .bf16) (b0 b1 b2 : FVec Ideal S1x1024 .f32)
    (p q : Fin 1024) :
    k0_pay1 (F := Ideal) x w0 b0 w1 b1 w2 b2 (ix2 p q)
      = Mlp.layerRow (Mlp.layerRow (Mlp.layerRow (fun k => x (ix2 p k)) (weightT w0) (biasRow b0)) (weightT w1) (biasRow b1))
          (weightT w2) (biasRow b2) q := by
  unfold k0_pay1
  rw [layer_apply]
  simp only [truncf_apply, layer_apply]

end Cert.KernelIdeal.Body

end
-- ==== Proof.Tile.lean ====
/-
  From tiles to the whole array.

  The call runs the body at 16 grid points. Point t stages rows 1024·t … 1024·t + 1023 of the batch array,
  all of each prepared weight matrix and bias row, and writes its 1024 × 1024 result back to the same rows of
  the output array. Since a row of the network's result depends on the input only through that row, what
  point t writes back is exactly those rows of the network's result array; the 16 tiles cover every row, so
  the output array ends holding the network's result.

  A block's entry sits in its array at block index × block size + its coordinate on each axis; the index maps
  are decided once over the 16 points; the row numbered i lies in the block of point i / 1024.
-/
import proofs.«410666_j53927609369198_3_alg».proof.Proof.Gen.KernelIdeal.Value
import proofs.«410666_j53927609369198_3_alg».proof.Proof.Entry
import proofs.«410666_j53927609369198_3_alg».proof.Proof.KernelLayer

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The network's result array of the argument arrays as launched. -/
abbrev result (c : Dev nD) : S16384x1024.Idx → EReal :=
  Mlp.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## The grid -/

theorem hz : (![0, 0] : Fin 2 → Nat) = fun _ => 0 := funext fun a => by fin_cases a <;> rfl

/-- The index maps, decided over the 16 points: the batch window and the output window are at block (t, 0), every
    weight and bias window at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem lt16 (t : Fin cfg0.N) : t.val < 16 := lt_of_lt_of_eq t.isLt N_0

/-- The batch row that row p of point t's tile is. -/
def row (t : Fin cfg0.N) (p : Fin 1024) : Fin 16384 :=
  ⟨t.val * 1024 + p.val, by have := lt16 t; have := p.isLt; omega⟩

/-! ## Where a block's entries sit in their arrays -/

/-- Entry (p, q) of point t's output block is entry (row t p, q) of the output array … -/
theorem emb_out (t : Fin cfg0.N) (p q : Fin 1024) : ((cfg0.win 7).blk t).view.emb (ix2 p q) = ix2 (row t p) q := by
  obtain ⟨-, -, e0, e1, -⟩ := idx_facts t
  funext a; apply Fin.ext
  match a with
  | ⟨0, _⟩ => show win0_7.index t (0 : Fin 2) * 1024 + 1 * p.val = t.val * 1024 + p.val; rw [e0]; omega
  | ⟨1, _⟩ => show win0_7.index t (1 : Fin 2) * 1024 + 1 * q.val = q.val; rw [e1]; omega

/-- … and the same for the batch block and the batch array. -/
theorem emb_x (t : Fin cfg0.N) (p k : Fin 1024) : ((cfg0.win 0).blk t).view.emb (ix2 p k) = ix2 (row t p) k := by
  obtain ⟨e0, e1, -⟩ := idx_facts t
  funext a; apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

/-- A weight window's block is its whole array. -/
theorem emb_w0 (t : Fin cfg0.N) (k o : Fin 1024) : ((cfg0.win 1).blk t).view.emb (ix2 k o) = ix2 k o := by
  obtain ⟨-, -, -, -, e0, e1, -⟩ := idx_facts t
  funext a; apply Fin.ext
  match a with
  | ⟨0, _⟩ => show win0_1.index t (0 : Fin 2) * 1024 + 1 * k.val = k.val; rw [e0]; omega
  | ⟨1, _⟩ => show win0_1.index t (1 : Fin 2) * 1024 + 1 * o.val = o.val; rw [e1]; omega
theorem emb_w1 (t : Fin cfg0.N) (k o : Fin 1024) : ((cfg0.win 2).blk t).view.emb (ix2 k o) = ix2 k o := by
  obtain ⟨-, -, -, -, -, -, e0, e1, -⟩ := idx_facts t
  funext a; apply Fin.ext
  match a with
  | ⟨0, _⟩ => show win0_2.index t (0 : Fin 2) * 1024 + 1 * k.val = k.val; rw [e0]; omega
  | ⟨1, _⟩ => show win0_2.index t (1 : Fin 2) * 1024 + 1 * o.val = o.val; rw [e1]; omega
theorem emb_w2 (t : Fin cfg0.N) (k o : Fin 1024) : ((cfg0.win 3).blk t).view.emb (ix2 k o) = ix2 k o := by
  obtain ⟨-, -, -, -, -, -, -, -, e0, e1, -⟩ := idx_facts t
  funext a; apply Fin.ext
  match a with
  | ⟨0, _⟩ => show win0_3.index t (0 : Fin 2) * 1024 + 1 * k.val = k.val; rw [e0]; omega
  | ⟨1, _⟩ => show win0_3.index t (1 : Fin 2) * 1024 + 1 * o.val = o.val; rw [e1]; omega

/-- A bias window's block is its whole one-row array. -/
theorem emb_b0 (t : Fin cfg0.N) (o : Fin 1024) : ((cfg0.win 4).blk t).view.emb (ix2 (0 : Fin 1) o) = ix2 (0 : Fin 1) o := by
  obtain ⟨-, -, -, -, -, -, -, -, -, -, e0, e1, -⟩ := idx_facts t
  funext a; apply Fin.ext
  match a with
  | ⟨0, _⟩ => show win0_4.index t (0 : Fin 2) * 1 + 1 * 0 = 0; rw [e0]
  | ⟨1, _⟩ => show win0_4.index t (1 : Fin 2) * 1024 + 1 * o.val = o.val; rw [e1]; omega
theorem emb_b1 (t : Fin cfg0.N) (o : Fin 1024) : ((cfg0.win 5).blk t).view.emb (ix2 (0 : Fin 1) o) = ix2 (0 : Fin 1) o := by
  obtain ⟨-, -, -, -, -, -, -, -, -, -, -, -, e0, e1, -⟩ := idx_facts t
  funext a; apply Fin.ext
  match a with
  | ⟨0, _⟩ => show win0_5.index t (0 : Fin 2) * 1 + 1 * 0 = 0; rw [e0]
  | ⟨1, _⟩ => show win0_5.index t (1 : Fin 2) * 1024 + 1 * o.val = o.val; rw [e1]; omega
theorem emb_b2 (t : Fin cfg0.N) (o : Fin 1024) : ((cfg0.win 6).blk t).view.emb (ix2 (0 : Fin 1) o) = ix2 (0 : Fin 1) o := by
  obtain ⟨-, -, -, -, -, -, -, -, -, -, -, -, -, -, e0, e1⟩ := idx_facts t
  funext a; apply Fin.ext
  match a with
  | ⟨0, _⟩ => show win0_6.index t (0 : Fin 2) * 1 + 1 * 0 = 0; rw [e0]
  | ⟨1, _⟩ => show win0_6.index t (1 : Fin 2) * 1024 + 1 * o.val = o.val; rw [e1]; omega

/-! ## The input blocks at a point, each by its literal type, read at an entry -/

abbrev xblk (c : Dev nD) (t : Fin cfg0.N) : FVec Ideal S1024x1024 .f32 := iblk m c 0 t
abbrev wblk0 (c : Dev nD) (t : Fin cfg0.N) : FVec Ideal S1024x1024 .bf16 := iblk m c 1 t
abbrev wblk1 (c : Dev nD) (t : Fin cfg0.N) : FVec Ideal S1024x1024 .bf16 := iblk m c 2 t
abbrev wblk2 (c : Dev nD) (t : Fin cfg0.N) : FVec Ideal S1024x1024 .bf16 := iblk m c 3 t
abbrev bblk0 (c : Dev nD) (t : Fin cfg0.N) : FVec Ideal S1x1024 .f32 := iblk m c 4 t
abbrev bblk1 (c : Dev nD) (t : Fin cfg0.N) : FVec Ideal S1x1024 .f32 := iblk m c 5 t
abbrev bblk2 (c : Dev nD) (t : Fin cfg0.N) : FVec Ideal S1x1024 .f32 := iblk m c 6 t

/-- Row p of the batch tile at point t is row `row t p` of the batch array. -/
theorem xblk_apply (c : Dev nD) (t : Fin cfg0.N) (p k : Fin 1024) :
    xblk m c t (ix2 p k) = m ((c : Thread nD τ).loc main_arg0) (ix2 (row t p) k) := by
  show V m c main_arg0 (((cfg0.win 0).blk t).view.emb (ix2 p k)) = _
  rw [emb_x, V_main_arg0]

/-- The staged weight matrices are the prepared ones: transposes of the (masked) arguments. -/
theorem wblk0_apply (c : Dev nD) (t : Fin cfg0.N) (k o : Fin 1024) :
    wblk0 m c t (ix2 k o) = Mlp.dense (m ((c : Thread nD τ).loc main_arg1)) o k := by
  show V m c main_v1 (((cfg0.win 1).blk t).view.emb (ix2 k o)) = _
  rw [emb_w0]; exact Entry.w0_apply m c k o
theorem wblk1_apply (c : Dev nD) (t : Fin cfg0.N) (k o : Fin 1024) :
    wblk1 m c t (ix2 k o) = Mlp.masked (m ((c : Thread nD τ).loc main_arg3)) (m ((c : Thread nD τ).loc main_arg5)) o k := by
  show V m c main_v5 (((cfg0.win 2).blk t).view.emb (ix2 k o)) = _
  rw [emb_w1]; exact Entry.w1_apply m c k o
theorem wblk2_apply (c : Dev nD) (t : Fin cfg0.N) (k o : Fin 1024) :
    wblk2 m c t (ix2 k o) = Mlp.masked (m ((c : Thread nD τ).loc main_arg6)) (m ((c : Thread nD τ).loc main_arg8)) o k := by
  show V m c main_v9 (((cfg0.win 3).blk t).view.emb (ix2 k o)) = _
  rw [emb_w2]; exact Entry.w2_apply m c k o

/-- The staged bias rows are the argument vectors. -/
theorem bblk0_apply (c : Dev nD) (t : Fin cfg0.N) (o : Fin 1024) :
    bblk0 m c t (ix2 (0 : Fin 1) o) = Mlp.bias (m ((c : Thread nD τ).loc main_arg2)) o := by
  show V m c main_v10 (((cfg0.win 4).blk t).view.emb (ix2 (0 : Fin 1) o)) = _
  rw [emb_b0]; exact Entry.b0_apply m c o
theorem bblk1_apply (c : Dev nD) (t : Fin cfg0.N) (o : Fin 1024) :
    bblk1 m c t (ix2 (0 : Fin 1) o) = Mlp.bias (m ((c : Thread nD τ).loc main_arg4)) o := by
  show V m c main_v11 (((cfg0.win 5).blk t).view.emb (ix2 (0 : Fin 1) o)) = _
  rw [emb_b1]; exact Entry.b1_apply m c o
theorem bblk2_apply (c : Dev nD) (t : Fin cfg0.N) (o : Fin 1024) :
    bblk2 m c t (ix2 (0 : Fin 1) o) = Mlp.bias (m ((c : Thread nD τ).loc main_arg7)) o := by
  show V m c main_v12 (((cfg0.win 6).blk t).view.emb (ix2 (0 : Fin 1) o)) = _
  rw [emb_b2]; exact Entry.b2_apply m c o

/-! ## What a point writes back -/

/-- The body's stored value at entry (p, q) of point t's tile is the network's result at (row t p, q): the three
    layers on row p of the tile, which is row `row t p` of the batch array, with the prepared weights and biases
    read back as the arguments'. -/
theorem tile_apply (c : Dev nD) (t : Fin cfg0.N) (p q : Fin 1024) :
    k0_pay1 (F := Ideal) (xblk m c t) (wblk0 m c t) (bblk0 m c t) (wblk1 m c t) (bblk1 m c t) (wblk2 m c t) (bblk2 m c t) (ix2 p q)
      = result m c (ix2 (row t p) q) := by
  rw [Body.pay_apply]
  have hx : (fun k => xblk m c t (ix2 p k)) = fun k => m ((c : Thread nD τ).loc main_arg0) (ix2 (row t p) k) :=
    funext fun k => xblk_apply m c t p k
  have hw0 : Body.weightT (wblk0 m c t) = Mlp.dense (m ((c : Thread nD τ).loc main_arg1)) := funext fun o => funext fun k => wblk0_apply m c t k o
  have hw1 : Body.weightT (wblk1 m c t) = Mlp.masked (m ((c : Thread nD τ).loc main_arg3)) (m ((c : Thread nD τ).loc main_arg5)) := funext fun o => funext fun k => wblk1_apply m c t k o
  have hw2 : Body.weightT (wblk2 m c t) = Mlp.masked (m ((c : Thread nD τ).loc main_arg6)) (m ((c : Thread nD τ).loc main_arg8)) := funext fun o => funext fun k => wblk2_apply m c t k o
  have hb0 : Body.biasRow (bblk0 m c t) = Mlp.bias (m ((c : Thread nD τ).loc main_arg2)) := funext fun o => bblk0_apply m c t o
  have hb1 : Body.biasRow (bblk1 m c t) = Mlp.bias (m ((c : Thread nD τ).loc main_arg4)) := funext fun o => bblk1_apply m c t o
  have hb2 : Body.biasRow (bblk2 m c t) = Mlp.bias (m ((c : Thread nD τ).loc main_arg7)) := funext fun o => bblk2_apply m c t o
  rw [hx, hw0, hw1, hw2, hb0, hb1, hb2]
  rfl

/-- WHAT POINT t WRITES BACK is block t of the network's result array. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1024x1024) hz, View.ld_unit_zero (S := S1x1024) hz]
  show (fun j : S1024x1024.Idx => k0_pay1 (F := Ideal) (xblk m c t) (wblk0 m c t) (bblk0 m c t) (wblk1 m c t) (bblk1 m c t) (wblk2 m c t) (bblk2 m c t) j)
    = fun j : S1024x1024.Idx => result m c (((cfg0.win 7).blk t).view.emb j)
  funext j
  obtain ⟨p, q, rfl⟩ : ∃ (p q : Fin 1024), j = ix2 p q := ⟨j 0, j 1, eq_ix2 j⟩
  rw [emb_out]
  exact tile_apply m c t p q

/-! ## The cover, the final array, the run -/

/-- An index of the output array is in point t's block iff each coordinate is in the block's range on its axis. -/
theorem mem_blk (t : Fin cfg0.N) (i : S16384x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v13).slice (win0_7.rect t)).set ↔ _
  rw [View.set_slice_whole, Rect.mem_set_unit]
  exact Iff.rfl

/-- Every row of the output array is in the block of the point its number divided by 1024 names. -/
theorem cover (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have ht : (i 0).val / 1024 < cfg0.N := by show (i 0).val / 1024 < grid0.N; rw [N_0]; omega
  obtain ⟨-, -, e0, e1, -⟩ := idx_facts ⟨(i 0).val / 1024, ht⟩
  refine ⟨⟨(i 0).val / 1024, ht⟩, flush0_7 _, ?_⟩
  rw [mem_blk]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ (1 : Fin 2) * 1024 ≤ (i 1).val ∧ (i 1).val < win0_7.index ⟨(i 0).val / 1024, ht⟩ (1 : Fin 2) * 1024 + 1024
    rw [e1]; omega

/-- THE OUTPUT ARRAY after the run is the network's result array. -/
theorem final (c : Dev nD) : (dats m 0 c).arrAt 7 cfg0.N = result m c :=
  (dats m 0 c).arrAt_eq_of_cover 7 (result m c) (fun t _ => flushed_eq m c t) cover

/-- The kernel's run: it terminates with the output array at the network's result, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Tiles

end
-- ==== Proof.lean ====
/-
  A three-layer perceptron with rectifiers, tiled over the batch axis, against the same network computed whole.

  Both programs compute, for batch row r and output column o,
      relu (relu (relu (x W0ᵀ + b0) (W1 ∘ M1)ᵀ + b1) (W2 ∘ M2)ᵀ + b2) [r, o],
  where ∘ is the entrywise product with a 0/1 mask and relu is the maximum with zero. The kernel prepares the
  transposed (and masked) weight matrices and the bias rows once, then runs 16 tiles of 1024 rows each, every
  tile doing the three matrix products against the resident weights; the reference contracts the whole batch
  array with each weight matrix over both operands' second axis. On the extended reals the change of float
  format between the kernel's layers is the identity, a matrix product into a zero accumulator is the plain
  sum, and the two programs' sums have the same terms in the same order, so no arithmetic law is needed beyond
  reading each side entry by entry: in particular the inputs' finiteness is never used.

  `Mlp` states the network; `RefNetwork` reads the reference as it; `KernelLayer` reads the body's stored value;
  `Entry` reads the prepared operands; `Tile` goes from tiles to the whole output array. The three frames are
  the generated ones (the reference's from its generated run); the kernel's idealization rewrote nothing.
-/
import proofs.«410666_j53927609369198_3_alg».proof.Defs
import proofs.«410666_j53927609369198_3_alg».proof.Proof.Gen.Kernel
import proofs.«410666_j53927609369198_3_alg».proof.Proof.Gen.Kernel.Skeleton
import proofs.«410666_j53927609369198_3_alg».proof.Proof.Gen.Kernel.Launch
import proofs.«410666_j53927609369198_3_alg».proof.Proof.Gen.Kernel.Points
import proofs.«410666_j53927609369198_3_alg».proof.Proof.Gen.Kernel.Frame
import proofs.«410666_j53927609369198_3_alg».proof.Proof.Gen.KernelIdeal
import proofs.«410666_j53927609369198_3_alg».proof.Proof.Gen.KernelIdeal.Skeleton
import proofs.«410666_j53927609369198_3_alg».proof.Proof.Gen.KernelIdeal.Launch
import proofs.«410666_j53927609369198_3_alg».proof.Proof.Gen.KernelIdeal.Points
import proofs.«410666_j53927609369198_3_alg».proof.Proof.Gen.KernelIdeal.Frame
import proofs.«410666_j53927609369198_3_alg».proof.Proof.Gen.ReferenceIdeal
import proofs.«410666_j53927609369198_3_alg».proof.Proof.Gen.Pre_finite_inputs
import proofs.«410666_j53927609369198_3_alg».proof.Proof.Gen.KernelIdeal.Value
import proofs.«410666_j53927609369198_3_alg».proof.Proof.Gen.ReferenceIdeal.Run
import proofs.«410666_j53927609369198_3_alg».proof.Proof.Gen.ReferenceIdeal.Read
import proofs.«410666_j53927609369198_3_alg».proof.Proof.RefNetwork
import proofs.«410666_j53927609369198_3_alg».proof.Proof.Tile
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's output array and the reference's result are both the network's result
    array of those arguments. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v18_eq _ _ _ _ _ _ _ _ _).trans
    (Cert.ReferenceIdeal.RefValue.result_eq _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
